-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x600000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S10000x128 : Shape := ⟨2, ![10000, 128]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩

abbrev nBuf : Space → Nat
  | .hbm => 64
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S128x128, .f32⟩
  | .hbm, ⟨9, _⟩ => ⟨S50000x128, .f32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S50000, .f32⟩
  | .hbm, ⟨14, _⟩ => ⟨S600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000, .f32⟩
  | .hbm, ⟨45, _⟩ => ⟨S600000, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S600000x1, .f32⟩
  | .hbm, ⟨56, _⟩ => ⟨S600000x128, .f32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S1x128, .f32⟩
  | .hbm, ⟨63, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S10000x128_S128x128_S10000x128_1_0_0_1_n_n_wf : DotDims.WF S10000x128 S128x128 S10000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S128x128, .f32⟩
  | .hbm, ⟨9, _⟩ => ⟨S50000x128, .f32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S50000, .f32⟩
  | .hbm, ⟨14, _⟩ => ⟨S600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000, .f32⟩
  | .hbm, ⟨45, _⟩ => ⟨S600000, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S600000x1, .f32⟩
  | .hbm, ⟨56, _⟩ => ⟨S600000x128, .f32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.LinearBlock.lean ====
/-
  The first kernel region, read as a value at the ideal instance.  Each grid point t (five of them) holds rows
  10000·t … 10000·t + 9999 of the left operand and the whole right operand; the body stores the matrix product of the
  two blocks (the changes of float format are the identity on extended reals, and the product into a zero accumulator is
  the plain sum over the contracted axis).  Hence what point t writes back is block t of ONE function of the two
  arrays, `rowsTimes x w` : entry (r, n) is the sum over k of x (r, k) · w (k, n); and since the five blocks tile the
  rows, the output array ends holding that function.
-/
import proofs.«161418_j43671227466246_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Linear

open Cert.KernelIdeal Cert.KernelIdeal.Gen

/-! ## The block product at an index -/

theorem lhs_axis0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_axis1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
theorem rhs_axis0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
theorem rhs_axis1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (r, k) of a block of rows, for the row r of the output entry j. -/
abbrev blkRow (j : S10000x128.Idx) (k : Fin 128) : S10000x128.Idx := fun a => match a with
  | ⟨0, _⟩ => ⟨(j 0).val, (j 0).isLt⟩
  | ⟨1, _⟩ => ⟨k.val, k.isLt⟩
/-- Entry (k, n) of the right operand, for the column n of the output entry j. -/
abbrev blkCol (j : S10000x128.Idx) (k : Fin 128) : S128x128.Idx := fun a => match a with
  | ⟨0, _⟩ => ⟨k.val, k.isLt⟩
  | ⟨1, _⟩ => ⟨(j 1).val, (j 1).isLt⟩

/-- The body's stored value at entry j of the block: the sum over the contracted axis of the products of the two
    loaded blocks' entries (the format changes are the identity on extended reals; the accumulator is zero). -/
theorem pay_apply (xb : FVec Ideal S10000x128 .f32) (wb : FVec Ideal S128x128 .f32) (j : S10000x128.Idx) :
    k0_pay1 (F := Ideal) xb wb j = ∑ k : Fin 128, xb (blkRow j k) * wb (blkCol j k) := by
  unfold k0_pay1
  refine (Ideal.matmul_constant_zero_apply dot_S10000x128_S128x128_S10000x128_1_0_0_1_n_n none _ _ j).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = blkRow j k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx j ((ValueIdx.contrEquiv1 dot_S10000x128_S128x128_S10000x128_1_0_0_1_n_n 128 rfl rfl).symm k) = blkCol j k := funext fun a => Fin.ext (by
    match a with
    | ⟨0, _⟩ => exact (rhs_axis0 _ _).trans hk
    | ⟨1, _⟩ => exact rhs_axis1 _ _)
  rw [el, er, ValueIdx.truncf_apply, ValueIdx.truncf_apply, shapeCast_self]

/-! ## The whole-array function -/

/-- Entry (r, k) of the left array, for the row r of the output entry i. -/
abbrev arrRow (i : S50000x128.Idx) (k : Fin 128) : S50000x128.Idx := fun a => match a with
  | ⟨0, _⟩ => ⟨(i 0).val, (i 0).isLt⟩
  | ⟨1, _⟩ => ⟨k.val, k.isLt⟩
/-- Entry (k, n) of the right array, for the column n of the output entry i. -/
abbrev arrCol (i : S50000x128.Idx) (k : Fin 128) : S128x128.Idx := fun a => match a with
  | ⟨0, _⟩ => ⟨k.val, k.isLt⟩
  | ⟨1, _⟩ => ⟨(i 1).val, (i 1).isLt⟩

/-- The product of a [50000, 128] array with a [128, 128] array over the extended reals, entry by entry. -/
def rowsTimes (x : S50000x128.Idx → EReal) (w : S128x128.Idx → EReal) : S50000x128.Idx → EReal :=
  fun i => ∑ k : Fin 128, x (arrRow i k) * w (arrCol i k)

/-- A block product is the whole product at the array entry i the block entry j sits at, as soon as the blocks'
    entries are the arrays' entries there. -/
theorem pay_eq_rowsTimes (x : S50000x128.Idx → EReal) (w : S128x128.Idx → EReal)
    (xb : FVec Ideal S10000x128 .f32) (wb : FVec Ideal S128x128 .f32) (j : S10000x128.Idx) (i : S50000x128.Idx)
    (hx : ∀ k : Fin 128, xb (blkRow j k) = x (arrRow i k)) (hw : ∀ k : Fin 128, wb (blkCol j k) = w (arrCol i k)) :
    k0_pay1 (F := Ideal) xb wb j = rowsTimes x w i := by
  rw [pay_apply]
  exact Finset.sum_congr rfl fun k _ => by rw [hx k, hw k]

end Cert.KernelIdeal.Linear

end
-- ==== Proof.ResidualBlock.lean ====
/-
  The second kernel region's body, read as a value at the ideal instance: from a block `a` of 5000 rows of the aggregate, the
  bias `b` as one row, and the same 5000 rows `x` of the first argument, it stores max(a + b, 0) + x, the bias row repeated down
  the rows.  So entry (r, n) of what a point stores is max(a (r, n) + b (0, n), 0) + x (r, n), and a block of the stored value
  is the same block of ONE function of the three arrays, `reluResidual`.
-/
import proofs.«161418_j43671227466246_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Residual

open Cert.KernelIdeal Cert.KernelIdeal.Gen

/-- The bias entry a block entry j adds: row 0, j's column. -/
abbrev blkBias (j : S5000x128.Idx) : S1x128.Idx := fun a => match a with
  | ⟨0, _⟩ => ⟨0, Nat.one_pos⟩
  | ⟨1, _⟩ => ⟨(j 1).val, (j 1).isLt⟩

/-- The body's stored value at entry j of the block. -/
theorem pay_apply (a : FVec Ideal S5000x128 .f32) (b : FVec Ideal S1x128 .f32) (x : FVec Ideal S5000x128 .f32) (j : S5000x128.Idx) :
    k1_pay1 (F := Ideal) a b x j = max (a j + b (blkBias j)) (Ideal.ofBits .f32 0x00000000#32) + x j := by
  unfold k1_pay1
  show (addf (maximumf (addf (shapeCast S5000x128 a shapeCasts_S5000x128_S5000x128)
      (broadcastTo S5000x128 (shapeCast S1x128 b shapeCasts_S1x128_S1x128) broadcasts_S1x128_S5000x128))
      (broadcast S5000x128 (Scalar.ofBits (F := Ideal) .f32 0x00000000#32))) x) j = _
  rw [shapeCast_self, shapeCast_self, ValueIdx.addf_apply, ValueIdx.maximumf_apply, ValueIdx.addf_apply, ValueIdx.broadcast_apply,
    broadcastTo_apply b broadcasts_S1x128_S5000x128 j (blkBias j) (fun d => match d with
      | ⟨0, _⟩ => rfl
      | ⟨1, _⟩ => rfl)]
  rfl

/-- The bias entry an array entry i adds: row 0, i's column. -/
abbrev arrBias (i : S50000x128.Idx) : S1x128.Idx := fun a => match a with
  | ⟨0, _⟩ => ⟨0, Nat.one_pos⟩
  | ⟨1, _⟩ => ⟨(i 1).val, (i 1).isLt⟩

/-- max(A + B, 0) + X over whole arrays, entry by entry, the one-row B repeated down the rows. -/
def reluResidual (A : S50000x128.Idx → EReal) (B : S1x128.Idx → EReal) (X : S50000x128.Idx → EReal) : S50000x128.Idx → EReal :=
  fun i => max (A i + B (arrBias i)) (Ideal.ofBits .f32 0x00000000#32) + X i

/-- What a point stores at block entry j is the whole function at the array entry i the block entry sits at, as soon as the
    blocks' entries are the arrays' entries there. -/
theorem pay_eq_reluResidual (A : S50000x128.Idx → EReal) (B : S1x128.Idx → EReal) (X : S50000x128.Idx → EReal)
    (a : FVec Ideal S5000x128 .f32) (b : FVec Ideal S1x128 .f32) (x : FVec Ideal S5000x128 .f32) (j : S5000x128.Idx) (i : S50000x128.Idx)
    (hA : a j = A i) (hB : b (blkBias j) = B (arrBias i)) (hX : x j = X i) :
    k1_pay1 (F := Ideal) a b x j = reluResidual A B X i := by
  rw [pay_apply, hA, hB, hX]
  rfl

end Cert.KernelIdeal.Residual

end
-- ==== Proof.Blocks.lean ====
/-
  Both kernel regions as whole-array values at the ideal instance, each at the contents `V` its region is entered from.
  Region 0 has five points; point t holds rows 10000·t … of its left operand and of its output, and all of its right operand.
  Region 1 has ten points; point t holds rows 5000·t … of its first and third operands and of its output, and the one-row second
  operand whole.  In each region what point t writes back is block t of one function of the operand arrays (the product; the
  rectified sum plus residual), and the points' blocks tile the output's rows, so the output array ends holding that function.
-/
import proofs.«161418_j43671227466246_1_alg».proof.Proof.LinearBlock
import proofs.«161418_j43671227466246_1_alg».proof.Proof.ResidualBlock

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-! ## Region 0: the product -/

/-- The block each window holds at point t: row block t of the left operand and of the output, the right operand whole. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two operand arrays. -/
theorem flushed0 (c : Dev nD) (t : Fin cfg0.N) :
    (dat0 V c).flushed 2 t = ((cfg0.win 2).blk t).view.read (Elt Ideal)
      (Linear.rowsTimes (V c main_arg0) (V c main_v4)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x128) origin2]
  obtain ⟨e0, e1, e2, e3, e4, e5⟩ := blockIndex0 t
  funext j
  refine Linear.pay_eq_rowsTimes (V c main_arg0) (V c main_v4) (iblk0 V c 0 t) (iblk0 V c 1 t) j (((cfg0.win 2).blk t).view.emb j)
    (fun k => ?_) (fun k => ?_)
  · show V c main_arg0 (((cfg0.win 0).blk t).view.emb (Linear.blkRow j k)) = V c main_arg0 (Linear.arrRow (((cfg0.win 2).blk t).view.emb j) k)
    congr 1
    funext a
    apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_v4 (((cfg0.win 1).blk t).view.emb (Linear.blkCol j k)) = V c main_v4 (Linear.arrCol (((cfg0.win 2).blk t).view.emb j) k)
    congr 1
    funext a
    apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An entry of the output array is in point t's block iff each coordinate is in the block's range. -/
theorem mem_block0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v5).slice (win0_2.rect t)).set ↔ _
  rw [View.set_slice_whole, Rect.mem_set_unit]
  exact Iff.rfl

/-- Row r lies in the block of point r / 10000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨e0, e1, e2, e3, e4, e5⟩ := blockIndex0 t
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array of region 0 ends holding the product of its two operand arrays. -/
theorem final0 (c : Dev nD) :
    (dat0 V c).arrAt 2 cfg0.N = Linear.rowsTimes (V c main_arg0) (V c main_v4) :=
  (dat0 V c).arrAt_eq_of_cover 2 _ (fun t _ => flushed0 V c t) cover0

/-! ## Region 1: the rectified sum plus the residual -/

/-- The block each window holds at point t: row block t of the first and third operands and of the output, the one-row operand whole. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of max(A + B, 0) + X of the three operand arrays. -/
theorem flushed1 (c : Dev nD) (t : Fin cfg1.N) :
    (dat1 V c).flushed 3 t = ((cfg1.win 3).blk t).view.read (Elt Ideal)
      (Residual.reluResidual (V c main_v43) (V c main_v44) (V c main_arg0)) := by
  show (cfg1.win 3).cut (grid1.coords t) ((dat1 V c).after 3 t) = _
  rw [after1_3]
  unfold out1_3
  rw [View.canon_unit_zero origin2]
  simp only [View.ld_unit_zero (S := S5000x128) origin2, View.ld_unit_zero (S := S1x128) origin2]
  obtain ⟨e0, e1, e2, e3, e4, e5, e6, e7⟩ := blockIndex1 t
  funext j
  refine Residual.pay_eq_reluResidual (V c main_v43) (V c main_v44) (V c main_arg0) (iblk1 V c 0 t) (iblk1 V c 1 t) (iblk1 V c 2 t) j
    (((cfg1.win 3).blk t).view.emb j) ?_ ?_ ?_
  · show V c main_v43 (((cfg1.win 0).blk t).view.emb j) = V c main_v43 (((cfg1.win 3).blk t).view.emb j)
    congr 1
  · show V c main_v44 (((cfg1.win 1).blk t).view.emb (Residual.blkBias j)) = V c main_v44 (Residual.arrBias (((cfg1.win 3).blk t).view.emb j))
    congr 1
    funext a
    apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  · show V c main_arg0 (((cfg1.win 2).blk t).view.emb j) = V c main_arg0 (((cfg1.win 3).blk t).view.emb j)
    congr 1

/-- An entry of the output array is in point t's block iff each coordinate is in the block's range. -/
theorem mem_block1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Row r lies in the block of point r / 5000. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5, e6, e7⟩ := blockIndex1 t
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array of region 1 ends holding max(A + B, 0) + X of its three operand arrays. -/
theorem final1 (c : Dev nD) :
    (dat1 V c).arrAt 3 cfg1.N = Residual.reluResidual (V c main_v43) (V c main_v44) (V c main_arg0) :=
  (dat1 V c).arrAt_eq_of_cover 3 _ (fun t _ => flushed1 V c t) cover1

end Cert.KernelIdeal.Blocks

end
-- ==== Proof.HostChain.lean ====
/-
  The host operations of the kernel's program between its two kernel regions, read as ONE function.  They take the first
  region's output (the linear layer's result) and the edge list: the degree of every node is the number of edges that end at it, the
  weight of an edge is rsqrt(max(deg, ε)) at its source times the same at its target (zero where the degree is zero), each
  edge gathers its source's row, scales it by its weight, and the scaled rows are added into their targets' rows.
  `aggregate xl e` is that composition, kept folded: nothing below looks inside it.  Beside it, what the second region
  finds in its other two operands: the bias as a one-row array, and the first argument unchanged.
-/
import proofs.«161418_j43671227466246_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable {F : FTy → Type} [FloatOps F]

/-- Row r (0: the sources, 1: the targets) of the edge list, as a vector of 600000 node numbers. -/
abbrev edgeRow0 (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000
abbrev edgeRow1 (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

set_option maxRecDepth 8192 in
/-- The normalised neighbourhood sum of the rows of `xl` along the edges `e`: the host operations between the two kernel
    regions, composed. -/
def aggregate (xl : (⟨S50000x128, .f32⟩ : BufTy).Contents (Elt F)) (e : (⟨S2x600000, .i32⟩ : BufTy).Contents (Elt F)) :
    (⟨S50000x128, .f32⟩ : BufTy).Contents (Elt F) :=
  Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] e slices_S2x600000_S1x600000_1_0) shapeCasts_S1x600000_S600000)) (mulf (Host.gather gather_S50000x128_S600000x1_S600000x128_1_0_n_n_0_1_1128 xl (broadcastInDim S600000x1 ![0] bcast_S600000_S600000x1_0 (select (cmpi .slt (shapeCast _ (extractStridedSlice S1x600000 ![0, 0] e slices_S2x600000_S1x600000_0_0) shapeCasts_S1x600000_S600000) (broadcastInDim S600000 ![] bcast_S_S600000 (constantI S_ 32 0#32))) (addi (shapeCast _ (extractStridedSlice S1x600000 ![0, 0] e slices_S2x600000_S1x600000_0_0) shapeCasts_S1x600000_S600000) (broadcastInDim S600000 ![] bcast_S_S600000 (constantI S_ 32 50000#32))) (shapeCast _ (extractStridedSlice S1x600000 ![0, 0] e slices_S2x600000_S1x600000_0_0) shapeCasts_S1x600000_S600000)))) (broadcastInDim S600000x128 ![0, 1] bcast_S600000x1_S600000x128_0_1 (broadcastInDim S600000x1 ![0] bcast_S600000_S600000x1_0 (mulf (Host.gather gather_S50000_S600000x1_S600000_n_0_n_n_0_1_1 (select (cmpf (F := F) .ogt (Host.scatterAdd scatter_S50000_S600000x1_S600000_n_0_0_1 (broadcastInDim S50000 ![] bcast_S_S50000 (constant S_ .f32 0x00000000#32)) (broadcastInDim S600000x1 ![0] bcast_S600000_S600000x1_0 (shapeCast _ (extractStridedSlice S1x600000 ![1, 0] e slices_S2x600000_S1x600000_1_0) shapeCasts_S1x600000_S600000)) (broadcastInDim S600000 ![] bcast_S_S600000 (constant S_ .f32 0x3F800000#32))) (broadcastInDim S50000 ![] bcast_S_S50000 (constant S_ .f32 0x00000000#32))) (Host.rsqrt (maximumf (Host.scatterAdd scatter_S50000_S600000x1_S600000_n_0_0_1 (broadcastInDim S50000 ![] bcast_S_S50000 (constant S_ .f32 0x00000000#32)) (broadcastInDim S600000x1 ![0] bcast_S600000_S600000x1_0 (shapeCast _ (extractStridedSlice S1x600000 ![1, 0] e slices_S2x600000_S1x600000_1_0) shapeCasts_S1x600000_S600000)) (broadcastInDim S600000 ![] bcast_S_S600000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S600000x1 ![0] bcast_S600000_S600000x1_0 (select (cmpi .slt (shapeCast _ (extractStridedSlice S1x600000 ![0, 0] e slices_S2x600000_S1x600000_0_0) shapeCasts_S1x600000_S600000) (broadcastInDim S600000 ![] bcast_S_S600000 (constantI S_ 32 0#32))) (addi (shapeCast _ (extractStridedSlice S1x600000 ![0, 0] e slices_S2x600000_S1x600000_0_0) shapeCasts_S1x600000_S600000) (broadcastInDim S600000 ![] bcast_S_S600000 (constantI S_ 32 50000#32))) (shapeCast _ (extractStridedSlice S1x600000 ![0, 0] e slices_S2x600000_S1x600000_0_0) shapeCasts_S1x600000_S600000)))) (Host.gather gather_S50000_S600000x1_S600000_n_0_n_n_0_1_1 (select (cmpf (F := F) .ogt (Host.scatterAdd scatter_S50000_S600000x1_S600000_n_0_0_1 (broadcastInDim S50000 ![] bcast_S_S50000 (constant S_ .f32 0x00000000#32)) (broadcastInDim S600000x1 ![0] bcast_S600000_S600000x1_0 (shapeCast _ (extractStridedSlice S1x600000 ![1, 0] e slices_S2x600000_S1x600000_1_0) shapeCasts_S1x600000_S600000)) (broadcastInDim S600000 ![] bcast_S_S600000 (constant S_ .f32 0x3F800000#32))) (broadcastInDim S50000 ![] bcast_S_S50000 (constant S_ .f32 0x00000000#32))) (Host.rsqrt (maximumf (Host.scatterAdd scatter_S50000_S600000x1_S600000_n_0_0_1 (broadcastInDim S50000 ![] bcast_S_S50000 (constant S_ .f32 0x00000000#32)) (broadcastInDim S600000x1 ![0] bcast_S600000_S600000x1_0 (shapeCast _ (extractStridedSlice S1x600000 ![1, 0] e slices_S2x600000_S1x600000_1_0) shapeCasts_S1x600000_S600000)) (broadcastInDim S600000 ![] bcast_S_S600000 (constant S_ .f32 0x3F800000#32))) (broadcastInDim S50000 ![] bcast_S_S50000 (constant S_ .f32 0x2B8CBCCC#32)))) (broadcastInDim S50000 ![] bcast_S_S50000 (id (constant S_ .f32 0x00000000#32)))) (broadcastInDim S600000x1 ![0] bcast_S600000_S600000x1_0 (select (cmpi .slt (shapeCast _ (extractStridedSlice S1x600000 ![1, 0] e slices_S2x600000_S1x600000_1_0) shapeCasts_S1x600000_S600000) (broadcastInDim S600000 ![] bcast_S_S600000 (constantI S_ 32 0#32))) (addi (shapeCast _ (extractStridedSlice S1x600000 ![1, 0] e slices_S2x600000_S1x600000_1_0) shapeCasts_S1x600000_S600000) (broadcastInDim S600000 ![] bcast_S_S600000 (constantI S_ 32 50000#32))) (shapeCast _ (extractStridedSlice S1x600000 ![1, 0] e slices_S2x600000_S1x600000_1_0) shapeCasts_S1x600000_S600000))))))))

variable (m : (ℓ : Loc nD τ sig) → Buf (Elt F) ℓ) (ρ : Dev nD → PrngReg)

/-! ## The first region's entry: the two operands of the product -/

theorem entry0_arg0 (c : Dev nD) : V1 m ρ c main_arg0 = m ((c : Thread nD τ).loc main_arg0) := by
  show StableHlo.after hostOps0 (W0 m ρ c) (Proc.devRef .tc main_arg0) = _
  after_results

theorem entry0_v4 (c : Dev nD) :
    V1 m ρ c main_v4 = transpose S128x128 [1, 0] (m ((c : Thread nD τ).loc main_arg2)) transposes_S128x128_S128x128_1_0 := by
  show StableHlo.after hostOps0 (W0 m ρ c) (Proc.devRef .tc main_v4) = _
  after_results

/-! ## After the first region: the edge rows, the bias and the first argument are as the launch left them -/

theorem exit0_v1 (c : Dev nD) : W2 m ρ c (Proc.devRef .tc main_v1) = edgeRow0 (m ((c : Thread nD τ).loc main_arg1)) :=
  (W2_of_ne m ρ c main_v1 (by decide)).trans (by
    show StableHlo.after hostOps0 (W0 m ρ c) (Proc.devRef .tc main_v1) = _
    after_results
    rfl)

theorem exit0_v3 (c : Dev nD) : W2 m ρ c (Proc.devRef .tc main_v3) = edgeRow1 (m ((c : Thread nD τ).loc main_arg1)) :=
  (W2_of_ne m ρ c main_v3 (by decide)).trans (by
    show StableHlo.after hostOps0 (W0 m ρ c) (Proc.devRef .tc main_v3) = _
    after_results
    rfl)

theorem exit0_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

/-! ## The second region's entry -/

/-- Its first operand: the aggregate of the first region's output along the edges. -/
theorem entry1_v43 (c : Dev nD) :
    V5 m ρ c main_v43 = aggregate (W2 m ρ c (Proc.devRef .tc main_v5)) (m ((c : Thread nD τ).loc main_arg1)) := by
  have h1 := exit0_v1 m ρ c
  have h3 := exit0_v3 m ρ c
  show StableHlo.after hostOps1_2 (StableHlo.after hostOps1_1 (StableHlo.after hostOps1 (W2 m ρ c))) (Proc.devRef .tc main_v43) = _
  generalize W2 m ρ c = U at h1 h3 ⊢
  after_results_simp
  rw [h1, h3]
  unfold aggregate
  simp only [TRef.ofBuf, TRef.toBuf, cast_eq] <;> rfl

/-- Its second operand: the bias as a one-row array. -/
theorem entry1_v44 (c : Dev nD) :
    V5 m ρ c main_v44 = shapeCast _ (m ((c : Thread nD τ).loc main_arg3)) shapeCasts_S128_S1x128 := by
  have h := exit0_arg3 m ρ c
  show StableHlo.after hostOps1_2 (StableHlo.after hostOps1_1 (StableHlo.after hostOps1 (W2 m ρ c))) (Proc.devRef .tc main_v44) = _
  generalize W2 m ρ c = U at h ⊢
  after_results_simp
  rw [h]
  rfl

/-- Its third operand: the first argument, which nothing has written. -/
theorem entry1_arg0 (c : Dev nD) : V5 m ρ c main_arg0 = m ((c : Thread nD τ).loc main_arg0) :=
  ((W6_arr m ρ c 2).trans (((dat1 (V5 m ρ) c).arrAt_in 2 rfl _).trans (A_eq1 (V5 m ρ) c 2))).symm.trans (W6_main_arg0 m ρ c)

end Cert.KernelIdeal.Chain

end
-- ==== Proof.KernelValue.lean ====
/-
  The kernel program's result as one function of its four arguments, at the ideal instance:
      result = max(aggregate(x · Wᵀ, edges) + bias, 0) + x.
  The run leaves the result buffer at the last segment boundary's contents; that buffer is the second region's output array,
  which ends holding max(A + B, 0) + X of what the region was entered with: A the aggregate (the host operations between the
  regions, folded) of the first region's output, B the bias as one row, X the first argument.  The first region's output in turn
  is the product of the first argument with the transposed weight.
-/
import proofs.«161418_j43671227466246_1_alg».proof.Proof.KRun
import proofs.«161418_j43671227466246_1_alg».proof.Proof.Blocks
import proofs.«161418_j43671227466246_1_alg».proof.Proof.HostChain

set_option maxRecDepth 16384

noncomputable section

open Idealize.ShloMosaic Idealize.ShloMosaic.TcCoe Idealize.SL.Sem

namespace Cert.KernelIdeal.Result

open Cert.KernelIdeal Cert.KernelIdeal.Gen

/-- The layer as one function of the node features x, the edge list e, the weight W and the bias b. -/
def layer (x : S50000x128.Idx → EReal) (e : (⟨S2x600000, .i32⟩ : BufTy).Contents (Elt Ideal)) (W : S128x128.Idx → EReal) (b : S128.Idx → EReal) :
    S50000x128.Idx → EReal :=
  Residual.reluResidual
    (Chain.aggregate (F := Ideal) (Linear.rowsTimes x (transpose S128x128 [1, 0] W transposes_S128x128_S128x128_1_0)) e)
    (shapeCast S1x128 b shapeCasts_S128_S1x128) x

variable (m : (ℓ : Loc nD τ sig) → Buf (Elt Ideal) ℓ) (ρ : Dev nD → PrngReg)

/-- The first region's output array when the host operations after it start. -/
theorem linear_out (c : Dev nD) :
    W2 m ρ c (Proc.devRef .tc main_v5)
      = Linear.rowsTimes (m ((c : Thread nD τ).loc main_arg0))
          (transpose S128x128 [1, 0] (m ((c : Thread nD τ).loc main_arg2)) transposes_S128x128_S128x128_1_0) := by
  refine (W2_arr m ρ c 2).trans ?_
  rw [Blocks.final0 (V1 m ρ) c, Chain.entry0_arg0 m ρ c, Chain.entry0_v4 m ρ c]

/-- The result buffer at the last segment boundary. -/
theorem result_eq (c : Dev nD) :
    W6 m ρ c (Proc.devRef .tc main_v45)
      = layer (m ((c : Thread nD τ).loc main_arg0)) (m ((c : Thread nD τ).loc main_arg1))
          (m ((c : Thread nD τ).loc main_arg2)) (m ((c : Thread nD τ).loc main_arg3)) := by
  refine (W6_arr m ρ c 3).trans ?_
  rw [Blocks.final1 (V5 m ρ) c, Chain.entry1_v43 m ρ c, Chain.entry1_v44 m ρ c, Chain.entry1_arg0 m ρ c, linear_out m ρ c]
  rfl

/-- The run, read: the result at `layer` of the arguments, the arguments unchanged. -/
theorem run : θ_run defs (onTc (τ := τ) (main (F := Ideal))) ⟨m, fun _ => 0, ρ⟩ fun r => ∀ c : Dev nD,
      r.2.mem ((c.tc : Thread nD τ).loc main_v45)
        = layer (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m ρ c), (h c).2⟩) (GenP.run_main (F := Ideal) m ρ)

end Cert.KernelIdeal.Result

end
-- ==== Proof.RefValue.lean ====
/-
  The reference program's result as the same function of the four arguments that the kernel program computes.
  The reference's run ends with its result buffer at the composed term of its 65 host operations.  That term is
      (max(T(x ·host Wᵀ) + bias broadcast, 0 broadcast)) + x,
  T being literally the operations the kernel program applies between its two kernel regions.  Three facts join the two sides:
  the host's contraction of x with the transposed weight is, entry by entry, the sum over the contracted axis (as the kernel's
  block products are); the bias broadcast to a row and then down the rows reads, at entry (r, n), the bias at n, as the kernel's
  one-row operand does at (0, n); and a zero constant broadcast reads zero everywhere.
-/
import proofs.«161418_j43671227466246_1_alg».proof.Proof.RefRun
import proofs.«161418_j43671227466246_1_alg».proof.Proof.KernelValue
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.ReferenceIdeal.RefValue

open Cert.ReferenceIdeal Cert.ReferenceIdeal.Gen

/-! ## The host contraction at an index -/

theorem lhs_axis0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_axis1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_axis0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_axis1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's contraction of a [50000, 128] array with a [128, 128] array is the entrywise sum of products. -/
theorem dot_eq_rowsTimes (x : FVec Ideal S50000x128 .f32) (w : FVec Ideal S128x128 .f32) :
    Host.dotGeneral (F := Ideal) dot_S50000x128_S128x128_S50000x128_1_0_0_1_n_n none x w = Cert.KernelIdeal.Linear.rowsTimes x w := by
  funext i
  simp only [Host.dotGeneral]
  rw [Ideal.dotGeneral_apply, ← Equiv.sum_comp (ValueIdx.contrEquiv1 dot_S50000x128_S128x128_S50000x128_1_0_0_1_n_n 128 rfl rfl).symm]
  unfold Cert.KernelIdeal.Linear.rowsTimes
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = Cert.KernelIdeal.Linear.arrRow i k := funext fun a => Fin.ext (by
    match a with
    | ⟨0, _⟩ => exact lhs_axis0 _ _
    | ⟨1, _⟩ => exact (lhs_axis1 _ _).trans hk)
  have er : dot_S50000x128_S128x128_S50000x128_1_0_0_1_n_n.rhsIdx i ((ValueIdx.contrEquiv1 dot_S50000x128_S128x128_S50000x128_1_0_0_1_n_n 128 rfl rfl).symm k) = Cert.KernelIdeal.Linear.arrCol i k := funext fun a => Fin.ext (by
    match a with
    | ⟨0, _⟩ => exact (rhs_axis0 _ _).trans hk
    | ⟨1, _⟩ => exact rhs_axis1 _ _)
  rw [el, er]

/-! ## The closing operations -/

/-- The reference's last operations on the aggregate A: add the bias (broadcast to a row, then down the rows), take the maximum
    with a broadcast zero, add x. -/
def closing {F : FTy → Type} [FloatOps F] (A : (⟨S50000x128, .f32⟩ : BufTy).Contents (Elt F)) (b : (⟨S128, .f32⟩ : BufTy).Contents (Elt F))
    (x : (⟨S50000x128, .f32⟩ : BufTy).Contents (Elt F)) : (⟨S50000x128, .f32⟩ : BufTy).Contents (Elt F) :=
  addf (maximumf (addf A (broadcastInDim S50000x128 ![0, 1] bcast_S1x128_S50000x128_0_1 (broadcastInDim S1x128 ![1] bcast_S128_S1x128_1 b)))
    (broadcastInDim S50000x128 ![] bcast_S_S50000x128 (constant S_ .f32 0x00000000#32))) x

/-- The bias entry of column n. -/
abbrev biasCol (i : S50000x128.Idx) : S128.Idx := fun a => match a with
  | ⟨0, _⟩ => ⟨(i 1).val, (i 1).isLt⟩

/-- At the ideal instance the closing operations are max(A + B, 0) + X with B the bias as one row. -/
theorem closing_eq (A : FVec Ideal S50000x128 .f32) (b : FVec Ideal S128 .f32) (x : FVec Ideal S50000x128 .f32) :
    closing (F := Ideal) A b x
      = Cert.KernelIdeal.Residual.reluResidual A (shapeCast Cert.KernelIdeal.S1x128 b Cert.KernelIdeal.Facts₀.shapeCasts_S128_S1x128) x := by
  funext i
  unfold closing Cert.KernelIdeal.Residual.reluResidual
  rw [ValueIdx.addf_apply, ValueIdx.maximumf_apply, ValueIdx.addf_apply,
    broadcastInDim_apply ![0, 1] bcast_S1x128_S50000x128_0_1 _ i (Cert.KernelIdeal.Residual.arrBias i) (fun a => match a with
      | ⟨0, _⟩ => rfl
      | ⟨1, _⟩ => rfl),
    broadcastInDim_apply ![1] bcast_S128_S1x128_1 b (Cert.KernelIdeal.Residual.arrBias i) (biasCol i) (fun a => match a with
      | ⟨0, _⟩ => rfl),
    broadcastInDim_apply ![] bcast_S_S50000x128 _ i ValueIdx.ix0 (fun a => a.elim0),
    ValueIdx.constant_apply,
    shapeCast_addUnit_apply ![128] b Cert.KernelIdeal.Facts₀.shapeCasts_S128_S1x128 (Cert.KernelIdeal.Residual.arrBias i)]
  have hb : biasCol i = fun a : Fin 1 => Cert.KernelIdeal.Residual.arrBias i a.succ := funext fun a => match a with
    | ⟨0, _⟩ => rfl
  rw [hb]

/-! ## The reference's result -/

set_option maxRecDepth 65536 in
/-- The reference's composed term, regrouped: the closing operations on the kernel program's own aggregate of the host contraction. -/
theorem res_regroup {F : FTy → Type} [FloatOps F] (m : (ℓ : Loc nD τ sig) → Buf (Elt F) ℓ) (c : Dev nD) :
    Cert.ReferenceIdeal.ValueP.res_main_v48 m c
      = closing (Cert.KernelIdeal.Chain.aggregate
          (Host.dotGeneral dot_S50000x128_S128x128_S50000x128_1_0_0_1_n_n none (m ((c.tc : Thread nD τ).loc main_arg0))
            (transpose S128x128 [1, 0] (m ((c.tc : Thread nD τ).loc main_arg2)) transposes_S128x128_S128x128_1_0))
          (m ((c.tc : Thread nD τ).loc main_arg1)))
        (m ((c.tc : Thread nD τ).loc main_arg3)) (m ((c.tc : Thread nD τ).loc main_arg0)) := by
  unfold Cert.ReferenceIdeal.ValueP.res_main_v48 closing Cert.KernelIdeal.Chain.aggregate
  rfl

/-- The reference's result is the layer function of its arguments. -/
theorem res_eq_layer (m : (ℓ : Loc nD τ sig) → Buf (Elt Ideal) ℓ) (c : Dev nD) :
    Cert.ReferenceIdeal.ValueP.res_main_v48 m c
      = Cert.KernelIdeal.Result.layer (m ((c.tc : Thread nD τ).loc main_arg0)) (m ((c.tc : Thread nD τ).loc main_arg1))
          (m ((c.tc : Thread nD τ).loc main_arg2)) (m ((c.tc : Thread nD τ).loc main_arg3)) := by
  rw [res_regroup, closing_eq, dot_eq_rowsTimes]
  rfl

end Cert.ReferenceIdeal.RefValue

end
-- ==== Proof.lean ====
/-
  A graph-convolution layer with a residual, certified equal over the extended reals to its plain reference.

  Both programs compute, from node features x [50000, 128], an edge list e [2, 600000], a weight W [128, 128] and a bias
  b [128],
        out = max( aggregate(x · Wᵀ, e) + b, 0 ) + x,
  where aggregate normalises by the square roots of the target degrees, gathers each edge's source row, scales it and adds it into
  the edge's target row.  The kernel program computes x · Wᵀ in a first kernel region (five row blocks, each a block product),
  runs the aggregate as host operations, and computes max(· + b, 0) + x in a second kernel region (ten row blocks); the reference
  runs everything as host operations.  The aggregate is the same sequence of operations in both programs and is carried folded.
  What the modules show: each region's output array as one function of its operand arrays (a block of the product is the
  product's block; likewise for the elementwise region; the blocks tile the rows), the buffers each region is entered with, the
  host contraction as the same entrywise sum, the broadcast bias as the one-row bias, and the assembly.  No law beyond reading
  sums and broadcasts at an index is needed, so the precondition (finite inputs) is never opened.
-/
import proofs.«161418_j43671227466246_1_alg».proof.Defs
import proofs.«161418_j43671227466246_1_alg».proof.Proof.Gen.Kernel
import proofs.«161418_j43671227466246_1_alg».proof.Proof.Gen.Kernel.Skeleton
import proofs.«161418_j43671227466246_1_alg».proof.Proof.Gen.Kernel.Launch
import proofs.«161418_j43671227466246_1_alg».proof.Proof.Gen.Kernel.Points
import proofs.«161418_j43671227466246_1_alg».proof.Proof.Gen.Kernel.Frame
import proofs.«161418_j43671227466246_1_alg».proof.Proof.Gen.KernelIdeal
import proofs.«161418_j43671227466246_1_alg».proof.Proof.Gen.KernelIdeal.Skeleton
import proofs.«161418_j43671227466246_1_alg».proof.Proof.Gen.KernelIdeal.Launch
import proofs.«161418_j43671227466246_1_alg».proof.Proof.Gen.KernelIdeal.Points
import proofs.«161418_j43671227466246_1_alg».proof.Proof.Gen.KernelIdeal.Frame
import proofs.«161418_j43671227466246_1_alg».proof.Proof.Gen.ReferenceIdeal
import proofs.«161418_j43671227466246_1_alg».proof.Proof.Gen.Pre_finite_inputs
import proofs.«161418_j43671227466246_1_alg».proof.Proof.RefRun
import proofs.«161418_j43671227466246_1_alg».proof.Proof.KernelValue
import proofs.«161418_j43671227466246_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the layer function of the arguments in their result. -/
theorem algebraic : Cert.algebraic_KernelIdeal_ReferenceIdeal := by
  intro m ρ m' ρ' _ hagree
  refine ⟨fun c => Cert.KernelIdeal.Result.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq_layer m' c, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
